-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) (main_arg1 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S2048x64 : Shape := ⟨2, ![2048, 64]⟩
abbrev S2048x2048 : Shape := ⟨2, ![2048, 2048]⟩
abbrev S256x64 : Shape := ⟨2, ![256, 64]⟩
abbrev S256x256 : Shape := ⟨2, ![256, 256]⟩
abbrev S256x1x64 : Shape := ⟨3, ![256, 1, 64]⟩
abbrev S1x256x64 : Shape := ⟨3, ![1, 256, 64]⟩
abbrev S256x256x64 : Shape := ⟨3, ![256, 256, 64]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x2048, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x256, .f32⟩
  | .local _ .vmem, ⟨5, _⟩ => ⟨S256x256, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S256x64_S256x64_0_0 : ∀ a, (![0, 0] : Fin 2 → Nat) a + S256x64.size a ≤ S256x64.size a
  h_S256x64 : 0 < S256x64.numel
  shapeCasts_S256x64_S256x1x64 : S256x64.ShapeCasts S256x1x64
  shapeCasts_S256x64_S1x256x64 : S256x64.ShapeCasts S1x256x64
  broadcasts_S256x1x64_S256x256x64 : S256x1x64.Broadcasts S256x256x64
  broadcasts_S1x256x64_S256x256x64 : S1x256x64.Broadcasts S256x256x64
  reduces_S256x256x64_S256x256 : S256x256x64.Reduces [2] S256x256
  inb_S256x256_S256x256_0_0 : ∀ a, (![0, 0] : Fin 2 → Nat) a + S256x256.size a ≤ S256x256.size a
  h_S256x256 : 0 < S256x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S2048x64.size a
  hwx0_1 : ∀ i : grid0.Coords, EltTy.bits .f32 = 32 ∨ (Rect.block (s := S2048x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x2048.size a
  hwx0_2 : ∀ i : grid0.Coords, EltTy.bits .f32 = 32 ∨ (Rect.block (s := S2048x2048) S256x256.size (cc0_transform_2 i) (hinb0_2 i)).WholeWords (EltTy.packing .f32)

variable [Facts₀]

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x1x64, .f32⟩
  | .hbm, ⟨3, _⟩ => ⟨S1x2048x64, .f32⟩
  | .hbm, ⟨4, _⟩ => ⟨S2048x2048x64, .f32⟩
  | .hbm, ⟨5, _⟩ => ⟨S2048x2048x64, .f32⟩
  | .hbm, ⟨6, _⟩ => ⟨S2048x2048x64, .f32⟩
  | .hbm, ⟨7, _⟩ => ⟨S2048x2048x64, .f32⟩
  | .hbm, ⟨8, _⟩ => ⟨S_, .f32⟩
  | .hbm, ⟨9, _⟩ => ⟨S2048x2048, .f32⟩
  | .hbm, ⟨10, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  reducesTo_S2048x2048x64_S2048x2048_d2 : S2048x2048x64.ReducesTo [2] S2048x2048
  h_S_ : 0 < S_.numel

variable [Facts₀]

class Facts : Prop extends Facts₀ where

variable [Facts]
-- ==== Proof.LibOuterPair.lean ====
/-
  General lemmas for kernels that pair every row of one matrix with every row of another ("outer" broadcasting:
  `x[:, None, :]` against `y[None, :, :]`) and reduce the paired values over the shared last axis.

  • Layout, read at an index written by coordinates: an `[a, c]` array cast to `[a, 1, c]`
    (`shapeCast_ac_a1c_apply`); an `[a, 1, c]` array broadcast to `[a, b, c]` (`broadcastTo_a1c_abc_apply`: the
    middle coordinate is forgotten); a `[1, b, c]` array broadcast to `[a, b, c]` (`broadcastTo_1bc_abc_apply`:
    the leading coordinate is forgotten).
  • A float add-reduction of an `[a, b, c]` vector over its last axis, on the extended reals, read at `(i, j)`: the
    sum over `k` of the source at `(i, j, k)` (`multiReduction_add_last3`).
  • Order on the extended reals: a square is never negative, at the two infinities too (`⊥ · ⊥ = ⊤ · ⊤ = ⊤`), so a
    finite sum of squares is never negative and its maximum with zero is the sum itself
    (`ereal_mul_self_nonneg`, `sum_mul_self_nonneg`, `max_sum_mul_self_zero`). No finiteness is asked.
-/
import Idealize.ShloMosaic.Lib.ValueLayout
import Idealize.ShloMosaic.PureOps.Ideal.Laws

open scoped BigOperators

namespace Cert.Lib.OuterPair

open Idealize.ShloMosaic Idealize.ShloMosaic.ValueIdx

variable {α : Type}

/-! ## A middle unit axis added by a shape cast, and the two broadcasts that fill a unit axis -/

/-- An `[a, c]` array cast to `[a, 1, c]` reads, at `(i, u, k)`, the operand at `(i, k)`: the two indices have the
    same row-major position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-! ## A sum over the last of three axes, read at an index -/

/-- On the extended reals a float add-reduction of an `[a, b, c]` vector over its last axis is, at `(i, j)`, the sum
    over `k` of the source at `(i, j, k)`: the reduced index with the coordinate `k` put back in last place. -/
theorem multiReduction_add_last3 {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-! ## Squares and their sums on the extended reals -/

/-- A square is never negative on the extended reals: a real's square is a real square, and both infinities square
    to `⊤`. -/
theorem ereal_mul_self_nonneg (x : EReal) : 0 ≤ x * x := by
  induction x using EReal.rec with
  | bot => rw [EReal.bot_mul_bot]; exact le_top
  | coe r => rw [← EReal.coe_mul]; exact EReal.coe_nonneg.mpr (mul_self_nonneg r)
  | top => rw [EReal.top_mul_top]; exact le_top

/-- So a finite sum of squares is never negative, -/
theorem sum_mul_self_nonneg {ι : Type} (s : Finset ι) (d : ι → EReal) : 0 ≤ ∑ k ∈ s, d k * d k :=
  Finset.sum_nonneg fun k _ => ereal_mul_self_nonneg (d k)

/-- and clamping it below at zero changes nothing. -/
theorem max_sum_mul_self_zero {ι : Type} (s : Finset ι) (d : ι → EReal) :
    max (∑ k ∈ s, d k * d k) 0 = ∑ k ∈ s, d k * d k :=
  max_eq_left (sum_mul_self_nonneg s d)

end Cert.Lib.OuterPair
-- ==== Proof.Distance.lean ====
/-
  THE SPECIFICATION: the matrix of Euclidean distances between 2048 points `x[i, ·]` and 2048 points `y[j, ·]` of
  64 coordinates each, as ONE function of the two coordinate arrays, index by index, on the extended reals:

      dist x y (i, j) = √( Σₖ (x[i, k] − y[j, k])² ).

  Both programs compute it. The reference sums the squared differences from zero and takes the root. The kernel
  computes the same sum tile by tile and clamps it below at zero before the root; a sum of squares is never negative
  on the extended reals (not even where a difference is infinite: `⊥ · ⊥ = ⊤`), so the clamp is the identity
  (`max_sqDist_zero`) and nothing is asked of the inputs.
-/
import Idealize.ShloMosaic.PureOps.Ideal
import Idealize.ShloMosaic.Lib.ValueIdx
import proofs.«124150_j32633161515324_1_alg».proof.Proof.LibOuterPair

noncomputable section

open scoped BigOperators

namespace Cert.Cdist

open Idealize.ShloMosaic Idealize.ShloMosaic.ValueIdx

/-- The squared Euclidean distance between two points given by their 64 coordinates. -/
def sqDist (u v : Fin 64 → EReal) : EReal := ∑ k : Fin 64, (u k - v k) * (u k - v k)

/-- A squared distance is never negative. -/
theorem sqDist_nonneg (u v : Fin 64 → EReal) : 0 ≤ sqDist u v :=
  Cert.Lib.OuterPair.sum_mul_self_nonneg Finset.univ fun k => u k - v k

/-- Clamping a squared distance below at zero changes nothing. -/
theorem max_sqDist_zero (u v : Fin 64 → EReal) : max (sqDist u v) 0 = sqDist u v :=
  max_eq_left (sqDist_nonneg u v)

/-- The distance matrix: entry `(i, j)` is the root of the squared distance between row `i` of `x` and row `j` of `y`. -/
def dist (x y : (⟨2, ![2048, 64]⟩ : Shape).Idx → EReal) : (⟨2, ![2048, 2048]⟩ : Shape).Idx → EReal :=
  fun i => Ideal.sqrt (sqDist (fun k => x (ix2 (i 0) k)) (fun k => y (ix2 (i 1) k)))

end Cert.Cdist

end
-- ==== Proof.ReferenceDistance.lean ====
/-
  THE REFERENCE COMPUTES THE DISTANCE MATRIX. Read one operation at a time (the generated read-at-an-index lemmas),
  entry `(i, j)` of the reference's result is the host's root of `0 + Σₖ d · d` with
  `d = x[i, k] − y[j, k]`: the two broadcasts of `x` read row `i` whatever `j` is, the two of `y` read row `j`
  whatever `i` is, and the sum runs over the last axis. The initial value is the zero word, which denotes `0`, and
  the host's root is the extended reals' root.
-/
import proofs.«124150_j32633161515324_1_alg».proof.Proof.Gen.ReferenceIdeal.Read
import proofs.«124150_j32633161515324_1_alg».proof.Proof.Distance

noncomputable section

open scoped BigOperators

namespace Cert.Cdist.Reference

open Cert.ReferenceIdeal Cert.ReferenceIdeal.Read Idealize.ShloMosaic Idealize.ShloMosaic.ValueIdx

/-- The squared difference the reference sums at `(i, j, k)` is that of `x[i, k]` and `y[j, k]`. -/
theorem squared_difference_apply (x y : (⟨S2048x64, .f32⟩ : BufTy).Contents (Elt Ideal)) (i : S2048x2048.Idx) (k : Fin 64) :
    val_main_v5 (F := Ideal) x y (idx_main_v6 i k)
      = (x (ix2 (i 0) k) - y (ix2 (i 1) k)) * (x (ix2 (i 0) k) - y (ix2 (i 1) k)) := by
  have ex : idx_main_v0 (idx_main_v2 (idx_main_v6 i k)) = ix2 (i 0) k :=
    funext fun a => Fin.ext (by match a with | ⟨0, _⟩ => rfl | ⟨1, _⟩ => rfl)
  have ey : idx_main_v1 (idx_main_v3 (idx_main_v6 i k)) = ix2 (i 1) k :=
    funext fun a => Fin.ext (by match a with | ⟨0, _⟩ => rfl | ⟨1, _⟩ => rfl)
  rw [val_main_v5_apply, val_main_v4_apply, val_main_v2_apply, val_main_v0_apply, val_main_v3_apply,
    val_main_v1_apply, ex, ey]
  rfl

/-- The reference's result is the distance matrix of its two arguments. -/
theorem result_eq (x y : (⟨S2048x64, .f32⟩ : BufTy).Contents (Elt Ideal)) :
    val_main_v7 (F := Ideal) x y = Cert.Cdist.dist x y := by
  funext i
  rw [val_main_v7_apply, val_main_v6_apply]
  simp only [squared_difference_apply]
  show Ideal.sqrt (Ideal.ofBits .f32 0x00000000#32 + _) = _
  rw [Ideal.ofBits_zero_f32, zero_add]
  rfl

end Cert.Cdist.Reference

end
-- ==== Proof.KernelBlock.lean ====
/-
  WHAT ONE GRID POINT COMPUTES. The kernel body loads a `[256, 64]` block `P` of `x` and a `[256, 64]` block `Q` of
  `y`, lays `P` out as `[256, 1, 64]` and `Q` as `[1, 256, 64]`, broadcasts both to `[256, 256, 64]`, subtracts,
  squares, sums over the last axis, clamps below at zero and takes the root. Read at `(p, q)`: the broadcast of `P`
  forgets `q` and reads `P[p, k]`, that of `Q` forgets `p` and reads `Q[q, k]`, the reduction is `Σₖ`; the clamp of
  a sum of squares is the identity. So the block the body stores is, at `(p, q)`, the root of the squared distance
  between row `p` of `P` and row `q` of `Q`.
-/
import proofs.«124150_j32633161515324_1_alg».proof.Proof.Gen.KernelIdeal.Value
import proofs.«124150_j32633161515324_1_alg».proof.Proof.Distance

noncomputable section

open scoped BigOperators

namespace Cert.Cdist.Kernel

open Cert.KernelIdeal Cert.KernelIdeal.Gen Idealize.ShloMosaic Idealize.ShloMosaic.ValueIdx
open Cert.Lib.OuterPair

/-- The block of `x` laid out `[256, 1, 64]` and broadcast over the middle axis reads `P[p, k]` at `(p, q, k)`. -/
theorem rows_apply (P : FVec Ideal S256x64 .f32) (p q : Fin 256) (k : Fin 64) :
    broadcastTo S256x256x64 (shapeCast S256x1x64 P shapeCasts_S256x64_S256x1x64) broadcasts_S256x1x64_S256x256x64 (ix3 p q k)
      = P (ix2 p k) :=
  (broadcastTo_a1c_abc_apply _ broadcasts_S256x1x64_S256x256x64 p q k).trans
    (shapeCast_ac_a1c_apply P shapeCasts_S256x64_S256x1x64 p 0 k)

/-- The block of `y` laid out `[1, 256, 64]` and broadcast over the leading axis reads `Q[q, k]` at `(p, q, k)`. -/
theorem cols_apply (Q : FVec Ideal S256x64 .f32) (p q : Fin 256) (k : Fin 64) :
    broadcastTo S256x256x64 (shapeCast S1x256x64 Q shapeCasts_S256x64_S1x256x64) broadcasts_S1x256x64_S256x256x64 (ix3 p q k)
      = Q (ix2 q k) :=
  (broadcastTo_1bc_abc_apply _ broadcasts_S1x256x64_S256x256x64 p q k).trans
    (shapeCast_ab_1ab_apply Q shapeCasts_S256x64_S1x256x64 0 q k)

/-- The block the body stores, at `(p, q)`: the root of the squared distance between row `p` of the `x` block and
    row `q` of the `y` block. -/
theorem block_apply (P Q : FVec Ideal S256x64 .f32) (p q : Fin 256) :
    Cert.KernelIdeal.Value.E2 (F := Ideal) P Q (ix2 p q)
      = Ideal.sqrt (Cert.Cdist.sqDist (fun k => P (ix2 p k)) (fun k => Q (ix2 q k))) := by
  have hy : Cert.KernelIdeal.Value.ix2_0 (ix2 p q) = ix2 p q :=
    funext fun a => Fin.ext (by match a with | ⟨0, _⟩ => rfl | ⟨1, _⟩ => rfl)
  show Ideal.sqrt (max (multiReduction (F := Ideal) .add [2] S256x256 _ 0x00000000#32 reduces_S256x256x64_S256x256 (.inl rfl) rfl
    (Cert.KernelIdeal.Value.ix2_0 (ix2 p q))) (Ideal.ofBits .f32 0x00000000#32)) = _
  rw [hy, Ideal.ofBits_zero_f32]
  refine congrArg Ideal.sqrt ?_
  refine (congrArg (max · 0) ((multiReduction_add_last3 _ 0x00000000#32 reduces_S256x256x64_S256x256 (.inl rfl) rfl p q).trans
    (Finset.sum_congr rfl fun k _ => ?_))).trans (Cert.Cdist.max_sqDist_zero _ _)
  show (_ - _) * (_ - _) = _
  rw [rows_apply, cols_apply]

end Cert.Cdist.Kernel

end
-- ==== Proof.KernelDistance.lean ====
/-
  THE KERNEL COMPUTES THE DISTANCE MATRIX. The grid is 8 × 8; point `(a, b)` stages rows `256a … 256a + 255` of `x`
  (all 64 columns), rows `256b … 256b + 255` of `y`, and writes back the `256 × 256` tile `(a, b)` of the result.
  At `(p, q)` inside the tile the body leaves the root of the squared distance between row `p` of the staged `x` rows
  and row `q` of the staged `y` rows, which are rows `256a + p` of `x` and `256b + q` of `y`: the tile is the
  distance matrix read through the tile's rectangle. The 64 tiles cover the `2048 × 2048` result (entry `(i, j)`
  lies in tile `(i / 256, j / 256)`), so after the run the result array IS the distance matrix of the two arguments.
-/
import proofs.«124150_j32633161515324_1_alg».proof.Proof.KernelBlock

noncomputable section

open scoped BigOperators

namespace Cert.Cdist.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The two argument arrays as the region finds them, and the two staged blocks at a point, at their literal types. -/
abbrev xarr (c : Dev nD) : Vec Ideal S2048x64 .f32 := V m c main_arg0
abbrev yarr (c : Dev nD) : Vec Ideal S2048x64 .f32 := V m c main_arg1
abbrev xblk (c : Dev nD) (t : Fin cfg0.N) : Vec Ideal S256x64 .f32 := iblk m c 0 t
abbrev yblk (c : Dev nD) (t : Fin cfg0.N) : Vec Ideal S256x64 .f32 := iblk m c 1 t

theorem zero_offsets : (![0, 0] : Fin 2 → Nat) = fun _ => 0 := funext fun a => by fin_cases a <;> rfl

/-- What the body leaves in the output buffer, from any two staged blocks: at `(p, q)` the root of the squared
    distance between row `p` of the first and row `q` of the second. -/
theorem tile_eq (X Y : Vec Ideal S256x64 .f32) :
    out0_2 X Y = fun y : S256x256.Idx => Ideal.sqrt (Cert.Cdist.sqDist (fun k => X (ix2 (y 0) k)) (fun k => Y (ix2 (y 1) k))) := by
  funext y
  obtain ⟨p, q, rfl⟩ : ∃ (p q : Fin 256), y = ix2 p q := ⟨y 0, y 1, eq_ix2 y⟩
  unfold out0_2
  refine (Cert.KernelIdeal.Value.canon2_eq _ _ (ix2 p q)).trans ?_
  simp only [View.ld_unit_zero (S := S256x64) zero_offsets]
  exact block_apply X Y p q

/-- How the three windows move over the grid, decided over its 64 points: the `x` window follows the tile's row
    index and the `y` window its column index, both staging all 64 columns; the tile indices stay below 8. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every tile of the result is some point's. -/
theorem index_onto : ∀ (a b : Fin 8), ∃ t : Fin cfg0.N, win0_2.index t = ![a.val, b.val] :=
  (by decide +kernel : ∀ (a b : Fin 8), ∃ t : Fin grid0.N, win0_2.index t = ![a.val, b.val])

/-- WHAT POINT `t` WRITES BACK is tile `t` of the distance matrix of the argument arrays. -/
theorem flushed_eq (c : Dev nD) (t : Fin cfg0.N) :
    (dats m 0 c).flushed 2 t
      = ((cfg0.win 2).blk t).view.read (Elt Ideal) (Cert.Cdist.dist (xarr m c) (yarr m c)) := by
  rw [Cert.KernelIdeal.Value.flushed2]
  show (cfg0.win 2).cut (grid0.coords t) (out0_2 (xblk m c t) (yblk m c t)) = _
  rw [tile_eq (xblk m c t) (yblk m c t)]
  obtain ⟨e0, e1, e2, e3, e4, e5⟩ := index_facts t
  show (fun y : S256x256.Idx => Ideal.sqrt (Cert.Cdist.sqDist (fun k => xblk m c t (ix2 (y 0) k)) (fun k => yblk m c t (ix2 (y 1) k))))
    = fun y : S256x256.Idx => Cert.Cdist.dist (xarr m c) (yarr m c) (((cfg0.win 2).blk t).view.emb y)
  funext y
  unfold Cert.Cdist.dist
  have hx : ∀ k : Fin 64, xblk m c t (ix2 (y 0) k) = xarr m c (ix2 ((((cfg0.win 2).blk t).view.emb y) 0) k) := by
    intro k
    show xarr m c (((cfg0.win 0).blk t).view.emb (ix2 (y 0) k)) = _
    refine congrArg (xarr m c) (funext fun a => Fin.ext ?_)
    match a with
    | ⟨0, _⟩ => show win0_0.index t (0 : Fin 2) * 256 + 1 * (y 0).val = win0_2.index t (0 : Fin 2) * 256 + 1 * (y 0).val; omega
    | ⟨1, _⟩ => show win0_0.index t (1 : Fin 2) * 64 + 1 * k.val = k.val; omega
  have hy : ∀ k : Fin 64, yblk m c t (ix2 (y 1) k) = yarr m c (ix2 ((((cfg0.win 2).blk t).view.emb y) 1) k) := by
    intro k
    show yarr m c (((cfg0.win 1).blk t).view.emb (ix2 (y 1) k)) = _
    refine congrArg (yarr m c) (funext fun a => Fin.ext ?_)
    match a with
    | ⟨0, _⟩ => show win0_1.index t (0 : Fin 2) * 256 + 1 * (y 1).val = win0_2.index t (1 : Fin 2) * 256 + 1 * (y 1).val; omega
    | ⟨1, _⟩ => show win0_1.index t (1 : Fin 2) * 64 + 1 * k.val = k.val; omega
  simp only [hx, hy]

/-- An entry of the result is in point `t`'s tile iff each coordinate is in the tile's range on its axis. -/
theorem mem_tile (t : Fin cfg0.N) (i : S2048x2048.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v0).slice (win0_2.rect t)).set ↔ _
  rw [View.set_slice_whole, Rect.mem_set_unit]
  exact Iff.rfl

/-- THE TILES COVER THE RESULT: entry `(i, j)` lies in the tile of the point with tile index `(i / 256, j / 256)`. -/
theorem covered (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := index_onto ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, flush0_2 t, ?_⟩
  rw [mem_tile]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 256 ≤ (i 1).val ∧ (i 1).val < win0_2.index t (1 : Fin 2) * 256 + 256; omega

/-- THE RESULT ARRAY after the run is the distance matrix of the two argument arrays. -/
theorem final (c : Dev nD) : (dats m 0 c).arrAt 2 cfg0.N = Cert.Cdist.dist (xarr m c) (yarr m c) :=
  (dats m 0 c).arrAt_eq_of_cover 2 (Cert.Cdist.dist (xarr m c) (yarr m c)) (fun t _ => flushed_eq m c t) covered

/-- The kernel's run: every weakly fair execution ends with the result at the distance matrix of the arguments as
    launched, the arguments unchanged. -/
theorem run : θ_run defs (onTc (τ := τ) (main (F := Ideal))) ⟨m, fun _ => 0, ρ⟩ fun r => ∀ c : Dev nD,
      r.2.mem ((c : Thread nD τ).loc main_v0)
          = Cert.Cdist.dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Cdist.Kernel

end
-- ==== Proof.lean ====
/-
  PAIRWISE EUCLIDEAN DISTANCES: `out[i, j] = √( Σₖ (x[i, k] − y[j, k])² )` for `x, y : f32[2048, 64]`.

  The kernel tiles the `2048 × 2048` result into 64 tiles of `256 × 256`; for a tile it stages 256 rows of `x` and
  256 rows of `y`, forms every pairwise difference, squares, sums over the 64 coordinates, clamps the sum below at
  zero and takes the root. The reference forms the same differences over the whole arrays, squares, sums from zero
  and takes the root; it has no clamp.

  On the extended reals the two are one function of the arguments (Proof/Distance.lean's `dist`):
    • the clamp is the identity, because a sum of squares is never negative there, the infinities included
      (Proof/LibOuterPair.lean; Proof/Distance.lean `max_sqDist_zero`) — so the precondition is never opened;
    • the reference's initial value is the zero word, which denotes `0`; the kernel's root and the host's root are the
      same function;
    • a tile's entry `(p, q)` reads row `p` of the staged `x` rows and row `q` of the staged `y` rows
      (Proof/KernelBlock.lean), which are the rows of the whole arrays the tile's position names, and the tiles cover
      the result (Proof/KernelDistance.lean); the reference's entry `(i, j)` reads row `i` of `x` and row `j` of `y`
      (Proof/ReferenceDistance.lean).
  The three frames are the generated ones (the reference's is its generated run with the result dropped); the ideal pass
  rewrote nothing, so `preserves` has nothing to state.
-/
import proofs.«124150_j32633161515324_1_alg».proof.Defs
import proofs.«124150_j32633161515324_1_alg».proof.Proof.Gen.Kernel
import proofs.«124150_j32633161515324_1_alg».proof.Proof.Gen.Kernel.Skeleton
import proofs.«124150_j32633161515324_1_alg».proof.Proof.Gen.Kernel.Launch
import proofs.«124150_j32633161515324_1_alg».proof.Proof.Gen.Kernel.Points
import proofs.«124150_j32633161515324_1_alg».proof.Proof.Gen.Kernel.Frame
import proofs.«124150_j32633161515324_1_alg».proof.Proof.Gen.KernelIdeal
import proofs.«124150_j32633161515324_1_alg».proof.Proof.Gen.KernelIdeal.Skeleton
import proofs.«124150_j32633161515324_1_alg».proof.Proof.Gen.KernelIdeal.Launch
import proofs.«124150_j32633161515324_1_alg».proof.Proof.Gen.KernelIdeal.Points
import proofs.«124150_j32633161515324_1_alg».proof.Proof.Gen.KernelIdeal.Frame
import proofs.«124150_j32633161515324_1_alg».proof.Proof.Gen.ReferenceIdeal
import proofs.«124150_j32633161515324_1_alg».proof.Proof.Gen.KernelIdeal.Value
import proofs.«124150_j32633161515324_1_alg».proof.Proof.Gen.ReferenceIdeal.Run
import proofs.«124150_j32633161515324_1_alg».proof.Proof.Gen.ReferenceIdeal.Read
import proofs.«124150_j32633161515324_1_alg».proof.Proof.Gen.Pre_finite_inputs
import proofs.«124150_j32633161515324_1_alg».proof.Proof.ReferenceDistance
import proofs.«124150_j32633161515324_1_alg».proof.Proof.KernelDistance
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is nine host operations in a row: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the distance matrix of the arguments: the kernel tile by tile (`Cert.Cdist.Kernel.run`),
    the reference by its run read one operation at a time (`Cert.Cdist.Reference.result_eq`), from memories that agree
    on `x` and `y`. -/
theorem algebraic : Cert.algebraic_KernelIdeal_ReferenceIdeal := by
  intro m ρ m' ρ' _ hagree
  refine ⟨_, Cert.Cdist.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.Cdist.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
